-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048 : Shape := ⟨3, ![2, 16, 2048]⟩
abbrev S4096x2048 : Shape := ⟨2, ![4096, 2048]⟩
abbrev S_ : Shape := ⟨0, ![]⟩

class Facts : Prop where
  bcast_S_S2x16x2048 : S_.BroadcastsInDim S2x16x2048 (![] : Fin 0 → Fin S2x16x2048.rank)
  reducesTo_S2x16x2048_S_d0_1_2 : S2x16x2048.ReducesTo [0, 1, 2] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S2x16x2048 .f32) (main_arg1 : FVec F S4096x2048 .f32) : IVec S_ 1 :=
  let main_v0 : FVec F S2x16x2048 .f32 := Host.absf main_arg0
  let main_cst : FVec F S_ .f32 := constant S_ .f32 0x7F800000#32
  let main_v1 : FVec F S2x16x2048 .f32 := broadcastInDim S2x16x2048 ![] bcast_S_S2x16x2048 main_cst
  let main_v2 : IVec S2x16x2048 1 := cmpf .olt main_v0 main_v1
  let main_c : IVec S_ 1 := constantI S_ 1 1#1
  let main_v3 : IVec S_ 1 := (fun x v => Host.reduce IntOp.andi x v reducesTo_S2x16x2048_S_d0_1_2 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S2x16x2048 : Shape := ⟨3, ![2, 16, 2048]⟩
abbrev S4096x2048 : Shape := ⟨2, ![4096, 2048]⟩
abbrev S32x2048 : Shape := ⟨2, ![32, 2048]⟩
abbrev S32x4096 : Shape := ⟨2, ![32, 4096]⟩
abbrev S512x2048 : Shape := ⟨2, ![512, 2048]⟩
abbrev S32x512 : Shape := ⟨2, ![32, 512]⟩
abbrev S1x2048 : Shape := ⟨2, ![1, 2048]⟩
abbrev S512 : Shape := ⟨1, ![512]⟩
abbrev S1x512 : Shape := ⟨2, ![1, 512]⟩
abbrev S2x16x4096 : Shape := ⟨3, ![2, 16, 4096]⟩

abbrev nBuf : Space → Nat
  | .hbm => 5
  | .vmem => 5
  | .smem => 0
  | _ => 0

abbrev bufTy : (tb : Table) → Fin (tcTables nBuf tb) → BufTy
  | .hbm, ⟨0, _⟩ => ⟨S2x16x2048, .f32⟩
  | .hbm, ⟨1, _⟩ => ⟨S4096x2048, .f32⟩
  | .hbm, ⟨2, _⟩ => ⟨S32x2048, .f32⟩
  | .hbm, ⟨3, _⟩ => ⟨S32x4096, .f32⟩
  | .hbm, ⟨4, _⟩ => ⟨S2x16x4096, .f32⟩
  | .local _ .vmem, ⟨0, _⟩ => ⟨S32x2048, .f32⟩
  | .local _ .vmem, ⟨1, _⟩ => ⟨S512x2048, .f32⟩
  | .local _ .vmem, ⟨2, _⟩ => ⟨S512x2048, .f32⟩
  | .local _ .vmem, ⟨3, _⟩ => ⟨S32x512, .f32⟩
  | .local _ .vmem, ⟨4, _⟩ => ⟨S32x512, .f32⟩
  | _, _ => ⟨S2x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2x16x2048_S32x2048 : S2x16x2048.ShapeCasts S32x2048
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  inb_S512x2048_S512x2048_0_0 : ∀ a, (![0, 0] : Fin 2 → Nat) a + S512x2048.size a ≤ S512x2048.size a
  h_S512x2048 : 0 < S512x2048.numel
  slices_S32x2048_o0_0_S1x2048 : S32x2048.Slices ![0, 0] S1x2048
  broadcasts_S1x2048_S512x2048 : S1x2048.Broadcasts S512x2048
  reduces_S512x2048_S512 : S512x2048.Reduces [1] S512
  inb_S32x512_S1x512_0_0 : ∀ a, (![0, 0] : Fin 2 → Nat) a + S1x512.size a ≤ S32x512.size a
  h_S1x512 : 0 < S1x512.numel
  shapeCasts_S1x512_S512 : S1x512.ShapeCasts S512
  shapeCasts_S512_S1x512 : S512.ShapeCasts S1x512
  slices_S32x2048_o1_0_S1x2048 : S32x2048.Slices ![1, 0] S1x2048
  inb_S32x512_S1x512_1_0 : ∀ a, (![1, 0] : Fin 2 → Nat) a + S1x512.size a ≤ S32x512.size a
  slices_S32x2048_o2_0_S1x2048 : S32x2048.Slices ![2, 0] S1x2048
  inb_S32x512_S1x512_2_0 : ∀ a, (![2, 0] : Fin 2 → Nat) a + S1x512.size a ≤ S32x512.size a
  slices_S32x2048_o3_0_S1x2048 : S32x2048.Slices ![3, 0] S1x2048
  inb_S32x512_S1x512_3_0 : ∀ a, (![3, 0] : Fin 2 → Nat) a + S1x512.size a ≤ S32x512.size a
  slices_S32x2048_o4_0_S1x2048 : S32x2048.Slices ![4, 0] S1x2048
  inb_S32x512_S1x512_4_0 : ∀ a, (![4, 0] : Fin 2 → Nat) a + S1x512.size a ≤ S32x512.size a
  slices_S32x2048_o5_0_S1x2048 : S32x2048.Slices ![5, 0] S1x2048
  inb_S32x512_S1x512_5_0 : ∀ a, (![5, 0] : Fin 2 → Nat) a + S1x512.size a ≤ S32x512.size a
  slices_S32x2048_o6_0_S1x2048 : S32x2048.Slices ![6, 0] S1x2048
  inb_S32x512_S1x512_6_0 : ∀ a, (![6, 0] : Fin 2 → Nat) a + S1x512.size a ≤ S32x512.size a
  slices_S32x2048_o7_0_S1x2048 : S32x2048.Slices ![7, 0] S1x2048
  inb_S32x512_S1x512_7_0 : ∀ a, (![7, 0] : Fin 2 → Nat) a + S1x512.size a ≤ S32x512.size a
  slices_S32x2048_o8_0_S1x2048 : S32x2048.Slices ![8, 0] S1x2048
  inb_S32x512_S1x512_8_0 : ∀ a, (![8, 0] : Fin 2 → Nat) a + S1x512.size a ≤ S32x512.size a
  slices_S32x2048_o9_0_S1x2048 : S32x2048.Slices ![9, 0] S1x2048
  inb_S32x512_S1x512_9_0 : ∀ a, (![9, 0] : Fin 2 → Nat) a + S1x512.size a ≤ S32x512.size a
  slices_S32x2048_o10_0_S1x2048 : S32x2048.Slices ![10, 0] S1x2048
  inb_S32x512_S1x512_10_0 : ∀ a, (![10, 0] : Fin 2 → Nat) a + S1x512.size a ≤ S32x512.size a
  slices_S32x2048_o11_0_S1x2048 : S32x2048.Slices ![11, 0] S1x2048
  inb_S32x512_S1x512_11_0 : ∀ a, (![11, 0] : Fin 2 → Nat) a + S1x512.size a ≤ S32x512.size a
  slices_S32x2048_o12_0_S1x2048 : S32x2048.Slices ![12, 0] S1x2048
  inb_S32x512_S1x512_12_0 : ∀ a, (![12, 0] : Fin 2 → Nat) a + S1x512.size a ≤ S32x512.size a
  slices_S32x2048_o13_0_S1x2048 : S32x2048.Slices ![13, 0] S1x2048
  inb_S32x512_S1x512_13_0 : ∀ a, (![13, 0] : Fin 2 → Nat) a + S1x512.size a ≤ S32x512.size a
  slices_S32x2048_o14_0_S1x2048 : S32x2048.Slices ![14, 0] S1x2048
  inb_S32x512_S1x512_14_0 : ∀ a, (![14, 0] : Fin 2 → Nat) a + S1x512.size a ≤ S32x512.size a
  slices_S32x2048_o15_0_S1x2048 : S32x2048.Slices ![15, 0] S1x2048
  inb_S32x512_S1x512_15_0 : ∀ a, (![15, 0] : Fin 2 → Nat) a + S1x512.size a ≤ S32x512.size a
  slices_S32x2048_o16_0_S1x2048 : S32x2048.Slices ![16, 0] S1x2048
  inb_S32x512_S1x512_16_0 : ∀ a, (![16, 0] : Fin 2 → Nat) a + S1x512.size a ≤ S32x512.size a
  slices_S32x2048_o17_0_S1x2048 : S32x2048.Slices ![17, 0] S1x2048
  inb_S32x512_S1x512_17_0 : ∀ a, (![17, 0] : Fin 2 → Nat) a + S1x512.size a ≤ S32x512.size a
  slices_S32x2048_o18_0_S1x2048 : S32x2048.Slices ![18, 0] S1x2048
  inb_S32x512_S1x512_18_0 : ∀ a, (![18, 0] : Fin 2 → Nat) a + S1x512.size a ≤ S32x512.size a
  slices_S32x2048_o19_0_S1x2048 : S32x2048.Slices ![19, 0] S1x2048
  inb_S32x512_S1x512_19_0 : ∀ a, (![19, 0] : Fin 2 → Nat) a + S1x512.size a ≤ S32x512.size a
  slices_S32x2048_o20_0_S1x2048 : S32x2048.Slices ![20, 0] S1x2048
  inb_S32x512_S1x512_20_0 : ∀ a, (![20, 0] : Fin 2 → Nat) a + S1x512.size a ≤ S32x512.size a
  slices_S32x2048_o21_0_S1x2048 : S32x2048.Slices ![21, 0] S1x2048
  inb_S32x512_S1x512_21_0 : ∀ a, (![21, 0] : Fin 2 → Nat) a + S1x512.size a ≤ S32x512.size a
  slices_S32x2048_o22_0_S1x2048 : S32x2048.Slices ![22, 0] S1x2048
  inb_S32x512_S1x512_22_0 : ∀ a, (![22, 0] : Fin 2 → Nat) a + S1x512.size a ≤ S32x512.size a
  slices_S32x2048_o23_0_S1x2048 : S32x2048.Slices ![23, 0] S1x2048
  inb_S32x512_S1x512_23_0 : ∀ a, (![23, 0] : Fin 2 → Nat) a + S1x512.size a ≤ S32x512.size a
  slices_S32x2048_o24_0_S1x2048 : S32x2048.Slices ![24, 0] S1x2048
  inb_S32x512_S1x512_24_0 : ∀ a, (![24, 0] : Fin 2 → Nat) a + S1x512.size a ≤ S32x512.size a
  slices_S32x2048_o25_0_S1x2048 : S32x2048.Slices ![25, 0] S1x2048
  inb_S32x512_S1x512_25_0 : ∀ a, (![25, 0] : Fin 2 → Nat) a + S1x512.size a ≤ S32x512.size a
  slices_S32x2048_o26_0_S1x2048 : S32x2048.Slices ![26, 0] S1x2048
  inb_S32x512_S1x512_26_0 : ∀ a, (![26, 0] : Fin 2 → Nat) a + S1x512.size a ≤ S32x512.size a
  slices_S32x2048_o27_0_S1x2048 : S32x2048.Slices ![27, 0] S1x2048
  inb_S32x512_S1x512_27_0 : ∀ a, (![27, 0] : Fin 2 → Nat) a + S1x512.size a ≤ S32x512.size a
  slices_S32x2048_o28_0_S1x2048 : S32x2048.Slices ![28, 0] S1x2048
  inb_S32x512_S1x512_28_0 : ∀ a, (![28, 0] : Fin 2 → Nat) a + S1x512.size a ≤ S32x512.size a
  slices_S32x2048_o29_0_S1x2048 : S32x2048.Slices ![29, 0] S1x2048
  inb_S32x512_S1x512_29_0 : ∀ a, (![29, 0] : Fin 2 → Nat) a + S1x512.size a ≤ S32x512.size a
  slices_S32x2048_o30_0_S1x2048 : S32x2048.Slices ![30, 0] S1x2048
  inb_S32x512_S1x512_30_0 : ∀ a, (![30, 0] : Fin 2 → Nat) a + S1x512.size a ≤ S32x512.size a
  slices_S32x2048_o31_0_S1x2048 : S32x2048.Slices ![31, 0] S1x2048
  inb_S32x512_S1x512_31_0 : ∀ a, (![31, 0] : Fin 2 → Nat) a + S1x512.size a ≤ S32x512.size a
  shapeCasts_S32x4096_S2x16x4096 : S32x4096.ShapeCasts S2x16x4096
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S32x2048.size a
  hwx0_0 : ∀ i : grid0.Coords, EltTy.bits .f32 = 32 ∨ (Rect.block (s := S32x2048) S32x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x4096.size a
  hwx0_2 : ∀ i : grid0.Coords, EltTy.bits .f32 = 32 ∨ (Rect.block (s := S32x4096) S32x512.size (cc0_transform_2 i) (hinb0_2 i)).WholeWords (EltTy.packing .f32)

variable [Facts₀]

abbrev win0_0 : Pipeline.Window sig grid0 :=
  Pipeline.Window.ofSpec (Memref.whole main_v0) S32x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x16x2048 : Shape := ⟨3, ![2, 16, 2048]⟩
abbrev S4096x2048 : Shape := ⟨2, ![4096, 2048]⟩
abbrev S2x16x1x2048 : Shape := ⟨4, ![2, 16, 1, 2048]⟩
abbrev S1x1x4096x2048 : Shape := ⟨4, ![1, 1, 4096, 2048]⟩
abbrev S2x16x4096x2048 : Shape := ⟨4, ![2, 16, 4096, 2048]⟩
abbrev S_ : Shape := ⟨0, ![]⟩
abbrev S2x16x4096 : Shape := ⟨3, ![2, 16, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2x16x2048, .f32⟩
  | .hbm, ⟨1, _⟩ => ⟨S4096x2048, .f32⟩
  | .hbm, ⟨2, _⟩ => ⟨S2x16x1x2048, .f32⟩
  | .hbm, ⟨3, _⟩ => ⟨S1x1x4096x2048, .f32⟩
  | .hbm, ⟨4, _⟩ => ⟨S2x16x4096x2048, .f32⟩
  | .hbm, ⟨5, _⟩ => ⟨S2x16x4096x2048, .f32⟩
  | .hbm, ⟨6, _⟩ => ⟨S2x16x4096x2048, .f32⟩
  | .hbm, ⟨7, _⟩ => ⟨S_, .f32⟩
  | .hbm, ⟨8, _⟩ => ⟨S2x16x4096, .f32⟩
  | _, _ => ⟨S2x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S2x16x2048_S2x16x1x2048_0_1_3 : S2x16x2048.BroadcastsInDim S2x16x1x2048 (![0, 1, 3] : Fin 3 → Fin S2x16x1x2048.rank)
  bcast_S4096x2048_S1x1x4096x2048_2_3 : S4096x2048.BroadcastsInDim S1x1x4096x2048 (![2, 3] : Fin 2 → Fin S1x1x4096x2048.rank)
  bcast_S2x16x1x2048_S2x16x4096x2048_0_1_2_3 : S2x16x1x2048.BroadcastsInDim S2x16x4096x2048 (![0, 1, 2, 3] : Fin 4 → Fin S2x16x4096x2048.rank)
  bcast_S1x1x4096x2048_S2x16x4096x2048_0_1_2_3 : S1x1x4096x2048.BroadcastsInDim S2x16x4096x2048 (![0, 1, 2, 3] : Fin 4 → Fin S2x16x4096x2048.rank)
  reducesTo_S2x16x4096x2048_S2x16x4096_d3 : S2x16x4096x2048.ReducesTo [3] S2x16x4096
  h_S_ : 0 < S_.numel

variable [Facts₀]

class Facts : Prop extends Facts₀ where

variable [Facts]
-- ==== Proof.PoolSpec.lean ====
/-
  The value both programs compute, and the two reductions that reach it.

  For a table `X` of rows of length n and a table `B` of rows of the same length, entry (p, q) of
  `rowsMax X B` is the largest of the n products X[p, k] · B[q, k], taken from −∞ upwards. The pooled result
  `poolMax x bt` is the same thing with the rows of `x` addressed by two coordinates:
  v[b, c, m] = max over k of x[b, c, k] · bt[m, k].

  On the extended reals a maximum of finitely many terms does not depend on the order in which the terms are met,
  and a product does not depend on the order of its factors; nothing else is used, so no finiteness of the inputs
  is needed anywhere.

  Two readings follow. A kernel step takes one row of `X`, repeats it down the 512 rows of a block of `B`,
  multiplies and takes the maximum along each row: entry q of that vector is `rowsMax X B` at (p, q). The host
  reduces a four-axis array of products along its last axis: entry (b, c, m) is the maximum over k of the array at
  (b, c, m, k).
-/
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.Pool

/-- −∞, as the word both programs start their maxima from. -/
abbrev negInf : Ideal .f32 := FloatOps.ofBits (F := Ideal) .f32 0xFF800000#32

/-- Entry (p, q): the largest product of row p of `X` with row q of `B`, position by position. -/
def rowsMax {a b n : Nat} (X : FVec Ideal ⟨2, ![a, n]⟩ .f32) (B : FVec Ideal ⟨2, ![b, n]⟩ .f32) :
    FVec Ideal ⟨2, ![a, b]⟩ .f32 :=
  fun i => (Finset.univ : Finset (Fin n)).fold max negInf (fun k => X (ix2 (i 0) k) * B (ix2 (i 1) k))

theorem rowsMax_apply {a b n : Nat} (X : FVec Ideal ⟨2, ![a, n]⟩ .f32) (B : FVec Ideal ⟨2, ![b, n]⟩ .f32)
    (p : Fin a) (q : Fin b) :
    rowsMax X B (ix2 p q) = (Finset.univ : Finset (Fin n)).fold max negInf (fun k => X (ix2 p k) * B (ix2 q k)) := rfl

/-- Entry (b, c, m): the largest product of x[b, c, ·] with bt[m, ·]. -/
def poolMax (x : FVec Ideal ⟨3, ![2, 16, 2048]⟩ .f32) (bt : FVec Ideal ⟨2, ![4096, 2048]⟩ .f32) :
    FVec Ideal ⟨3, ![2, 16, 4096]⟩ .f32 :=
  fun i => (Finset.univ : Finset (Fin 2048)).fold max negInf (fun k => x (ix3 (i 0) (i 1) k) * bt (ix2 (i 2) k))

/-- One kernel step. Row `o` of the 32 rows is cut out, repeated down the 512 rows of the block, multiplied into
    the block entry by entry, and each row's maximum taken from −∞; the resulting vector, laid out as one row, holds
    at q the largest product of row `o` of `X` with row q of `B` (the factors in the other order: a product
    commutes). -/
theorem row_step_apply (o : Nat) (X : FVec Ideal ⟨2, ![32, 2048]⟩ .f32) (B : FVec Ideal ⟨2, ![512, 2048]⟩ .f32)
    (hs : (⟨2, ![32, 2048]⟩ : Shape).Slices ![o, 0] ⟨2, ![1, 2048]⟩)
    (hb : (⟨2, ![1, 2048]⟩ : Shape).Broadcasts ⟨2, ![512, 2048]⟩)
    (hr : (⟨2, ![512, 2048]⟩ : Shape).Reduces [1] ⟨1, ![512]⟩)
    (hc : (⟨1, ![512]⟩ : Shape).ShapeCasts ⟨2, ![1, 512]⟩)
    (hφ : FKind.Formats .f32) (hacc : (0xFF800000#32 : BitVec 32) = FKind.maximumf.neutral .f32 hφ)
    (p : Fin 32) (hp : p.val = o) (u : Fin 1) (q : Fin 512) :
    shapeCast ⟨2, ![1, 512]⟩
        (multiReduction .maximumf [1] ⟨1, ![512]⟩
          (mulf B (broadcastTo ⟨2, ![512, 2048]⟩ (extractStridedSlice ⟨2, ![1, 2048]⟩ ![o, 0] X hs) hb))
          0xFF800000#32 hr hφ hacc) hc (ix2 u q)
      = rowsMax X B (ix2 p q) := by
  rw [shapeCast_a_1a_apply, Ideal.multiReduction_maximumf_single, rowsMax_apply]
  have e : ∀ k : Fin 2048, hr.lift (ix1 q) k = ix2 q k := fun k => by
    funext c; apply Fin.ext
    match c with
    | ⟨0, _⟩ => rfl
    | ⟨1, _⟩ => rfl
  refine congrArg (fun f => (Finset.univ : Finset (Fin 2048)).fold max negInf f) (funext fun (k : Fin 2048) => ?_)
  show B (hr.lift (ix1 q) k) * broadcastTo ⟨2, ![512, 2048]⟩ (extractStridedSlice ⟨2, ![1, 2048]⟩ ![o, 0] X hs) hb (hr.lift (ix1 q) k)
      = X (ix2 p k) * B (ix2 q k)
  rw [e k, broadcastTo_1b_ab_apply, slice2_axis0_apply o X hs (0 : Fin 1) k p (by rw [hp]; rfl), mul_comm]

/-- The host's reduction. A four-axis array reduced along its last axis by the maximum, from the one entry of a
    rank-0 initial value: entry (b, c, m) is the maximum over k of the array at (b, c, m, k), from that entry. -/
theorem host_max_apply (Y : FVec Ideal ⟨4, ![2, 16, 4096, 2048]⟩ .f32) (init : FVec Ideal ⟨0, ![]⟩ .f32)
    (h' : (⟨4, ![2, 16, 4096, 2048]⟩ : Shape).ReducesTo [3] ⟨3, ![2, 16, 4096]⟩) (hu : 0 < (⟨0, ![]⟩ : Shape).numel)
    (j : (⟨3, ![2, 16, 4096]⟩ : Shape).Idx) :
    Host.reduce FloatOps.maximumf Y init h' hu j
      = (Finset.univ : Finset (Fin 2048)).fold max (init ix0) (fun k => Y (ix4 (j 0) (j 1) (j 2) k)) := by
  have h : (⟨4, ![2, 16, 4096, 2048]⟩ : Shape).Reduces [3] ⟨3, ![2, 16, 4096]⟩ := by decide
  rw [Host.reduce_eq_fold_single FloatOps.maximumf Y init h' h hu j, eq_ix0 (Shape.Idx.first hu)]
  have e : ∀ k : Fin 2048, h.lift j k = ix4 (j 0) (j 1) (j 2) k := fun k => by
    funext c; apply Fin.ext
    match c with
    | ⟨0, _⟩ => rfl
    | ⟨1, _⟩ => rfl
    | ⟨2, _⟩ => rfl
    | ⟨3, _⟩ => rfl
  refine congrArg (fun f => (Finset.univ : Finset (Fin 2048)).fold max (init ix0) f) (funext fun (k : Fin 2048) => ?_)
  show Y (h.lift j k) = _
  exact congrArg Y (e k)

end Cert.Pool

end
-- ==== Proof.RefPool.lean ====
/-
  The reference computes `poolMax`.

  Its last operation reduces, by the maximum from −∞ along the last axis, the four-axis array of products whose
  entry (b, c, m, k) is x[b, c, k] · bt[m, k]: the two operands are first repeated along the axes they lack and
  then multiplied entry by entry. Read at (b, c, m), that is the largest product of x[b, c, ·] with bt[m, ·].
-/
import proofs.«164447_j16217796509773_1_alg».proof.Proof.Gen.ReferenceIdeal.Read
import proofs.«164447_j16217796509773_1_alg».proof.Proof.PoolSpec

noncomputable section

open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.Read Cert.Pool

/-- Entry (b, c, m, k) of the first repeated operand is x[b, c, k]. -/
theorem left_index (i0 : Fin 2) (i1 : Fin 16) (i2 : Fin 4096) (k : Fin 2048) :
    idx_main_v0 (idx_main_v2 (ix4 i0 i1 i2 k)) = ix3 i0 i1 k :=
  funext fun a => Fin.ext (by
    match a with
    | ⟨0, _⟩ => rfl
    | ⟨1, _⟩ => rfl
    | ⟨2, _⟩ => rfl)

/-- Entry (b, c, m, k) of the second repeated operand is bt[m, k]. -/
theorem right_index (i0 : Fin 2) (i1 : Fin 16) (i2 : Fin 4096) (k : Fin 2048) :
    idx_main_v1 (idx_main_v3 (ix4 i0 i1 i2 k)) = ix2 i2 k :=
  funext fun a => Fin.ext (by
    match a with
    | ⟨0, _⟩ => rfl
    | ⟨1, _⟩ => rfl)

/-- The reference's result is `poolMax` of its two arguments. -/
theorem result_eq (x0 : (⟨S2x16x2048, .f32⟩ : BufTy).Contents (Elt Ideal)) (x1 : (⟨S4096x2048, .f32⟩ : BufTy).Contents (Elt Ideal)) :
    val_main_v5 (F := Ideal) x0 x1 = poolMax x0 x1 := by
  funext i
  unfold val_main_v5
  rw [host_max_apply, val_main_cst_apply]
  unfold poolMax
  refine congrArg (fun f => (Finset.univ : Finset (Fin 2048)).fold max negInf f) (funext fun (k : Fin 2048) => ?_)
  rw [val_main_v4_apply, val_main_v2_apply, val_main_v0_apply, val_main_v3_apply, val_main_v1_apply]
  exact congrArg₂ (fun a b : Ideal .f32 => a * b) (congrArg x0 (left_index (i 0) (i 1) (i 2) k))
    (congrArg x1 (right_index (i 0) (i 1) (i 2) k))

end Cert.ReferenceIdeal.RefValue

end
-- ==== Proof.KernelBlock.lean ====
/-
  What one grid step leaves in its output block.

  The body loads the whole 32 × 2048 block of the first operand and the whole 512 × 2048 block of the second, and
  for each of the 32 rows r stores, into row r of the 32 × 512 output block, the vector whose entry q is the
  largest product of row r of the first block with row q of the second. The 32 one-row stores tile the block, so
  the block ends holding `rowsMax` of the two input blocks: entry (r, q) is the maximum over k of
  first[r, k] · second[q, k].
-/
import proofs.«164447_j16217796509773_1_alg».proof.Proof.Gen.KernelIdeal.Frame
import proofs.«164447_j16217796509773_1_alg».proof.Proof.PoolSpec

set_option maxRecDepth 16384

noncomputable section

open Idealize.ShloMosaic Idealize.ShloMosaic.TcCoe Idealize.ShloMosaic.ValueIdx Idealize.SL.Sem

namespace Cert.KernelIdeal.Hand

open Cert.KernelIdeal Cert.KernelIdeal.Gen Cert.Pool

theorem zero_offsets : (![0, 0] : Fin 2 → Nat) = fun _ => 0 := funext fun a => by fin_cases a <;> rfl

/-- Position x of the one-row rectangle at row `o` of the 32 × 512 block is the block's index (o, x's column);
    so a row payload that agrees with a function of the block index along its row agrees with it through the
    rectangle. -/
theorem row_piece (o : Nat) (inb : ∀ a, (![o, 0] : Fin 2 → Nat) a + S1x512.size a ≤ S32x512.size a)
    (p : Fin 32) (hp : p.val = o) (X : FVec Ideal S32x2048 .f32) (B : FVec Ideal S512x2048 .f32)
    (w : S1x512.Idx → Ideal .f32)
    (hw : ∀ (u : Fin 1) (q : Fin 512), w (ix2 u q) = rowsMax X B (ix2 p q))
    (x : (Rect.unit (s := S32x512) ![o, 0] S1x512.size inb).shape.Idx) :
    w x = rowsMax X B ((Rect.unit (s := S32x512) ![o, 0] S1x512.size inb).emb x) := by
  obtain ⟨u, q, rfl⟩ : ∃ (u : Fin 1) (q : Fin 512), x = ix2 u q := ⟨x 0, x 1, eq_ix2 x⟩
  have e : (Rect.unit (s := S32x512) ![o, 0] S1x512.size inb).emb (ix2 u q) = ix2 p q := by
    funext a; apply Fin.ext
    match a with
    | ⟨0, _⟩ => show o + 1 * u.val = p.val; have := u.isLt; omega
    | ⟨1, _⟩ => show 0 + 1 * q.val = q.val; omega
  rw [e]; exact hw u q

/-- The output block after the body is `rowsMax` of the two input blocks. -/
theorem out_block_eq (x0 : Vec Ideal S32x2048 .f32) (x1 : Vec Ideal S512x2048 .f32) :
    out0_2 (F := Ideal) x0 x1 = rowsMax x0 x1 := by
  have hX : k0_pay1 (F := Ideal) (View.ld x0 r0_0) = x0 := by
    unfold k0_pay1; rw [shapeCast_self, View.ld_unit_zero zero_offsets]
  have hB : View.ld x1 r0_1 = x1 := View.ld_unit_zero zero_offsets _ _
  funext y
  unfold out0_2
  refine (View.canon_apply_of_pieces (rowsMax (k0_pay1 (F := Ideal) (View.ld x0 r0_0)) (View.ld x1 r0_1)) _ ?_ y
    (cover0_2 _ _ _ _ _ _ _ _ _ _ _ _ _ _ _ _ _ _ _ _ _ _ _ _ _ _ _ _ _ _ _ _ y)).trans (by rw [hX, hB])
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · dsimp only
    refine row_piece 31 _ ⟨31, by decide⟩ rfl (k0_pay1 (F := Ideal) (View.ld x0 r0_0)) (View.ld x1 r0_1) _ ?_
    intro u q
    unfold k0_pay38
    exact row_step_apply 31 _ _ _ _ _ _ _ _ ⟨31, by decide⟩ rfl u q
  · dsimp only
    refine row_piece 30 _ ⟨30, by decide⟩ rfl (k0_pay1 (F := Ideal) (View.ld x0 r0_0)) (View.ld x1 r0_1) _ ?_
    intro u q
    unfold k0_pay37
    exact row_step_apply 30 _ _ _ _ _ _ _ _ ⟨30, by decide⟩ rfl u q
  · dsimp only
    refine row_piece 29 _ ⟨29, by decide⟩ rfl (k0_pay1 (F := Ideal) (View.ld x0 r0_0)) (View.ld x1 r0_1) _ ?_
    intro u q
    unfold k0_pay36
    exact row_step_apply 29 _ _ _ _ _ _ _ _ ⟨29, by decide⟩ rfl u q
  · dsimp only
    refine row_piece 28 _ ⟨28, by decide⟩ rfl (k0_pay1 (F := Ideal) (View.ld x0 r0_0)) (View.ld x1 r0_1) _ ?_
    intro u q
    unfold k0_pay35
    exact row_step_apply 28 _ _ _ _ _ _ _ _ ⟨28, by decide⟩ rfl u q
  · dsimp only
    refine row_piece 27 _ ⟨27, by decide⟩ rfl (k0_pay1 (F := Ideal) (View.ld x0 r0_0)) (View.ld x1 r0_1) _ ?_
    intro u q
    unfold k0_pay34
    exact row_step_apply 27 _ _ _ _ _ _ _ _ ⟨27, by decide⟩ rfl u q
  · dsimp only
    refine row_piece 26 _ ⟨26, by decide⟩ rfl (k0_pay1 (F := Ideal) (View.ld x0 r0_0)) (View.ld x1 r0_1) _ ?_
    intro u q
    unfold k0_pay33 k0_pay32
    exact row_step_apply 26 _ _ _ _ _ _ _ _ ⟨26, by decide⟩ rfl u q
  · dsimp only
    refine row_piece 25 _ ⟨25, by decide⟩ rfl (k0_pay1 (F := Ideal) (View.ld x0 r0_0)) (View.ld x1 r0_1) _ ?_
    intro u q
    unfold k0_pay31
    exact row_step_apply 25 _ _ _ _ _ _ _ _ ⟨25, by decide⟩ rfl u q
  · dsimp only
    refine row_piece 24 _ ⟨24, by decide⟩ rfl (k0_pay1 (F := Ideal) (View.ld x0 r0_0)) (View.ld x1 r0_1) _ ?_
    intro u q
    unfold k0_pay30
    exact row_step_apply 24 _ _ _ _ _ _ _ _ ⟨24, by decide⟩ rfl u q
  · dsimp only
    refine row_piece 23 _ ⟨23, by decide⟩ rfl (k0_pay1 (F := Ideal) (View.ld x0 r0_0)) (View.ld x1 r0_1) _ ?_
    intro u q
    unfold k0_pay29
    exact row_step_apply 23 _ _ _ _ _ _ _ _ ⟨23, by decide⟩ rfl u q
  · dsimp only
    refine row_piece 22 _ ⟨22, by decide⟩ rfl (k0_pay1 (F := Ideal) (View.ld x0 r0_0)) (View.ld x1 r0_1) _ ?_
    intro u q
    unfold k0_pay28
    exact row_step_apply 22 _ _ _ _ _ _ _ _ ⟨22, by decide⟩ rfl u q
  · dsimp only
    refine row_piece 21 _ ⟨21, by decide⟩ rfl (k0_pay1 (F := Ideal) (View.ld x0 r0_0)) (View.ld x1 r0_1) _ ?_
    intro u q
    unfold k0_pay27 k0_pay26
    exact row_step_apply 21 _ _ _ _ _ _ _ _ ⟨21, by decide⟩ rfl u q
  · dsimp only
    refine row_piece 20 _ ⟨20, by decide⟩ rfl (k0_pay1 (F := Ideal) (View.ld x0 r0_0)) (View.ld x1 r0_1) _ ?_
    intro u q
    unfold k0_pay25
    exact row_step_apply 20 _ _ _ _ _ _ _ _ ⟨20, by decide⟩ rfl u q
  · dsimp only
    refine row_piece 19 _ ⟨19, by decide⟩ rfl (k0_pay1 (F := Ideal) (View.ld x0 r0_0)) (View.ld x1 r0_1) _ ?_
    intro u q
    unfold k0_pay24
    exact row_step_apply 19 _ _ _ _ _ _ _ _ ⟨19, by decide⟩ rfl u q
  · dsimp only
    refine row_piece 18 _ ⟨18, by decide⟩ rfl (k0_pay1 (F := Ideal) (View.ld x0 r0_0)) (View.ld x1 r0_1) _ ?_
    intro u q
    unfold k0_pay23
    exact row_step_apply 18 _ _ _ _ _ _ _ _ ⟨18, by decide⟩ rfl u q
  · dsimp only
    refine row_piece 17 _ ⟨17, by decide⟩ rfl (k0_pay1 (F := Ideal) (View.ld x0 r0_0)) (View.ld x1 r0_1) _ ?_
    intro u q
    unfold k0_pay22
    exact row_step_apply 17 _ _ _ _ _ _ _ _ ⟨17, by decide⟩ rfl u q
  · dsimp only
    refine row_piece 16 _ ⟨16, by decide⟩ rfl (k0_pay1 (F := Ideal) (View.ld x0 r0_0)) (View.ld x1 r0_1) _ ?_
    intro u q
    unfold k0_pay21
    exact row_step_apply 16 _ _ _ _ _ _ _ _ ⟨16, by decide⟩ rfl u q
  · dsimp only
    refine row_piece 15 _ ⟨15, by decide⟩ rfl (k0_pay1 (F := Ideal) (View.ld x0 r0_0)) (View.ld x1 r0_1) _ ?_
    intro u q
    unfold k0_pay20 k0_pay19
    exact row_step_apply 15 _ _ _ _ _ _ _ _ ⟨15, by decide⟩ rfl u q
  · dsimp only
    refine row_piece 14 _ ⟨14, by decide⟩ rfl (k0_pay1 (F := Ideal) (View.ld x0 r0_0)) (View.ld x1 r0_1) _ ?_
    intro u q
    unfold k0_pay18
    exact row_step_apply 14 _ _ _ _ _ _ _ _ ⟨14, by decide⟩ rfl u q
  · dsimp only
    refine row_piece 13 _ ⟨13, by decide⟩ rfl (k0_pay1 (F := Ideal) (View.ld x0 r0_0)) (View.ld x1 r0_1) _ ?_
    intro u q
    unfold k0_pay17
    exact row_step_apply 13 _ _ _ _ _ _ _ _ ⟨13, by decide⟩ rfl u q
  · dsimp only
    refine row_piece 12 _ ⟨12, by decide⟩ rfl (k0_pay1 (F := Ideal) (View.ld x0 r0_0)) (View.ld x1 r0_1) _ ?_
    intro u q
    unfold k0_pay16
    exact row_step_apply 12 _ _ _ _ _ _ _ _ ⟨12, by decide⟩ rfl u q
  · dsimp only
    refine row_piece 11 _ ⟨11, by decide⟩ rfl (k0_pay1 (F := Ideal) (View.ld x0 r0_0)) (View.ld x1 r0_1) _ ?_
    intro u q
    unfold k0_pay15
    exact row_step_apply 11 _ _ _ _ _ _ _ _ ⟨11, by decide⟩ rfl u q
  · dsimp only
    refine row_piece 10 _ ⟨10, by decide⟩ rfl (k0_pay1 (F := Ideal) (View.ld x0 r0_0)) (View.ld x1 r0_1) _ ?_
    intro u q
    unfold k0_pay14 k0_pay13
    exact row_step_apply 10 _ _ _ _ _ _ _ _ ⟨10, by decide⟩ rfl u q
  · dsimp only
    refine row_piece 9 _ ⟨9, by decide⟩ rfl (k0_pay1 (F := Ideal) (View.ld x0 r0_0)) (View.ld x1 r0_1) _ ?_
    intro u q
    unfold k0_pay12
    exact row_step_apply 9 _ _ _ _ _ _ _ _ ⟨9, by decide⟩ rfl u q
  · dsimp only
    refine row_piece 8 _ ⟨8, by decide⟩ rfl (k0_pay1 (F := Ideal) (View.ld x0 r0_0)) (View.ld x1 r0_1) _ ?_
    intro u q
    unfold k0_pay11
    exact row_step_apply 8 _ _ _ _ _ _ _ _ ⟨8, by decide⟩ rfl u q
  · dsimp only
    refine row_piece 7 _ ⟨7, by decide⟩ rfl (k0_pay1 (F := Ideal) (View.ld x0 r0_0)) (View.ld x1 r0_1) _ ?_
    intro u q
    unfold k0_pay10
    exact row_step_apply 7 _ _ _ _ _ _ _ _ ⟨7, by decide⟩ rfl u q
  · dsimp only
    refine row_piece 6 _ ⟨6, by decide⟩ rfl (k0_pay1 (F := Ideal) (View.ld x0 r0_0)) (View.ld x1 r0_1) _ ?_
    intro u q
    unfold k0_pay9
    exact row_step_apply 6 _ _ _ _ _ _ _ _ ⟨6, by decide⟩ rfl u q
  · dsimp only
    refine row_piece 5 _ ⟨5, by decide⟩ rfl (k0_pay1 (F := Ideal) (View.ld x0 r0_0)) (View.ld x1 r0_1) _ ?_
    intro u q
    unfold k0_pay8
    exact row_step_apply 5 _ _ _ _ _ _ _ _ ⟨5, by decide⟩ rfl u q
  · dsimp only
    refine row_piece 4 _ ⟨4, by decide⟩ rfl (k0_pay1 (F := Ideal) (View.ld x0 r0_0)) (View.ld x1 r0_1) _ ?_
    intro u q
    unfold k0_pay7 k0_pay6
    exact row_step_apply 4 _ _ _ _ _ _ _ _ ⟨4, by decide⟩ rfl u q
  · dsimp only
    refine row_piece 3 _ ⟨3, by decide⟩ rfl (k0_pay1 (F := Ideal) (View.ld x0 r0_0)) (View.ld x1 r0_1) _ ?_
    intro u q
    unfold k0_pay5
    exact row_step_apply 3 _ _ _ _ _ _ _ _ ⟨3, by decide⟩ rfl u q
  · dsimp only
    refine row_piece 2 _ ⟨2, by decide⟩ rfl (k0_pay1 (F := Ideal) (View.ld x0 r0_0)) (View.ld x1 r0_1) _ ?_
    intro u q
    unfold k0_pay4
    exact row_step_apply 2 _ _ _ _ _ _ _ _ ⟨2, by decide⟩ rfl u q
  · dsimp only
    refine row_piece 1 _ ⟨1, by decide⟩ rfl (k0_pay1 (F := Ideal) (View.ld x0 r0_0)) (View.ld x1 r0_1) _ ?_
    intro u q
    unfold k0_pay3
    exact row_step_apply 1 _ _ _ _ _ _ _ _ ⟨1, by decide⟩ rfl u q
  · dsimp only
    refine row_piece 0 _ ⟨0, by decide⟩ rfl (k0_pay1 (F := Ideal) (View.ld x0 r0_0)) (View.ld x1 r0_1) _ ?_
    intro u q
    unfold k0_pay2
    exact row_step_apply 0 _ _ _ _ _ _ _ _ ⟨0, by decide⟩ rfl u q

end Cert.KernelIdeal.Hand

end
-- ==== Proof.PoolLayout.lean ====
/-
  `rowsMax` under the two re-layings the kernel's program uses.

  Blocks. Cutting the second table into blocks of 512 rows cuts the result into blocks of 512 columns: entry (p, q)
  of `rowsMax` of the whole first table with block T of the second is entry (p, 512·T + q) of `rowsMax` of the
  two whole tables.

  Rows. Reading a 2 × 16 × 2048 array as 32 rows of 2048 (row 16·b + c is x[b, c, ·]), taking `rowsMax` with the
  table, and reading the 32 × 4096 result back as 2 × 16 × 4096 gives `poolMax`.
-/
import proofs.«164447_j16217796509773_1_alg».proof.Proof.PoolSpec

noncomputable section

open Idealize.ShloMosaic Idealize.ShloMosaic.ValueIdx

namespace Cert.Pool

/-- A block of the result is the result of the blocks. `X'` is the first table as a step finds it, `B'` block
    `T` of the second table; `j` is an index of the 32 × 512 block and `i` the index of the 32 × 4096 array it
    lands on. -/
theorem rowsMax_block (X : FVec Ideal ⟨2, ![32, 2048]⟩ .f32) (B : FVec Ideal ⟨2, ![4096, 2048]⟩ .f32)
    (X' : FVec Ideal ⟨2, ![32, 2048]⟩ .f32) (B' : FVec Ideal ⟨2, ![512, 2048]⟩ .f32) (T : Nat)
    (hX : ∀ (p : Fin 32) (k : Fin 2048), X' (ix2 p k) = X (ix2 p k))
    (hB : ∀ (q : Fin 512) (k : Fin 2048) (q' : Fin 4096), q'.val = T * 512 + q.val → B' (ix2 q k) = B (ix2 q' k))
    (j : (⟨2, ![32, 512]⟩ : Shape).Idx) (i : (⟨2, ![32, 4096]⟩ : Shape).Idx)
    (h0 : (i 0).val = (j 0).val) (h1 : (i 1).val = T * 512 + (j 1).val) :
    rowsMax X' B' j = rowsMax X B i := by
  unfold rowsMax
  refine congrArg (fun f => (Finset.univ : Finset (Fin 2048)).fold max negInf f) (funext fun (k : Fin 2048) => ?_)
  show X' (ix2 (j 0) k) * B' (ix2 (j 1) k) = X (ix2 (i 0) k) * B (ix2 (i 1) k)
  rw [hX (j 0) k, hB (j 1) k (i 1) h1, show i 0 = j 0 from Fin.ext h0]

/-- The 32 rows are the 2 × 16 rows in order, and the result is read back the same way. -/
theorem rowsMax_reshaped (x : FVec Ideal ⟨3, ![2, 16, 2048]⟩ .f32) (bt : FVec Ideal ⟨2, ![4096, 2048]⟩ .f32)
    (h1 : (⟨3, ![2, 16, 2048]⟩ : Shape).ShapeCasts ⟨2, ![32, 2048]⟩)
    (h2 : (⟨2, ![32, 4096]⟩ : Shape).ShapeCasts ⟨3, ![2, 16, 4096]⟩) :
    shapeCast ⟨3, ![2, 16, 4096]⟩ (rowsMax (shapeCast ⟨2, ![32, 2048]⟩ x h1) bt) h2 = poolMax x bt := by
  funext i
  obtain ⟨b, c, mm, rfl⟩ : ∃ (b : Fin 2) (c : Fin 16) (mm : Fin 4096), i = ix3 b c mm := ⟨i 0, i 1, i 2, eq_ix3 i⟩
  have hp : b.val * 16 + c.val < 32 := by have := b.isLt; have := c.isLt; omega
  rw [shapeCast_apply _ h2 (ix3 b c mm) (ix2 (⟨b.val * 16 + c.val, hp⟩ : Fin 32) mm) (by
    rw [Shape.rowMajor_val_two, Shape.rowMajor_val_three]; rfl), rowsMax_apply]
  unfold poolMax
  refine congrArg (fun f => (Finset.univ : Finset (Fin 2048)).fold max negInf f) (funext fun (k : Fin 2048) => ?_)
  show shapeCast ⟨2, ![32, 2048]⟩ x h1 (ix2 (⟨b.val * 16 + c.val, hp⟩ : Fin 32) k) * bt (ix2 mm k)
      = x (ix3 b c k) * bt (ix2 mm k)
  rw [shapeCast_apply x h1 (ix2 (⟨b.val * 16 + c.val, hp⟩ : Fin 32) k) (ix3 b c k) (by
    rw [Shape.rowMajor_val_two, Shape.rowMajor_val_three]; rfl)]

end Cert.Pool

end
-- ==== Proof.KernelArray.lean ====
/-
  From blocks to the array.

  The grid has 8 steps. Step t finds the whole 32 × 2048 first operand, rows 512·t … 512·t + 511 of the 4096 × 2048
  second operand, and writes back columns 512·t … 512·t + 511 of the 32 × 4096 result. What it writes is
  `rowsMax` of its two blocks, and that is the block of `rowsMax` of the two whole operands; the 8 column
  blocks tile the result, so the result array ends holding `rowsMax` of the operands as the region finds them.
-/
import proofs.«164447_j16217796509773_1_alg».proof.Proof.KernelBlock
import proofs.«164447_j16217796509773_1_alg».proof.Proof.PoolLayout
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen Cert.Pool

variable (m : (ℓ : Loc nD τ sig) → Buf (Elt Ideal) ℓ)

/-- The first operand as the region finds it: 32 rows of 2048. -/
abbrev entryRows (c : Dev nD) : FVec Ideal S32x2048 .f32 := V m c main_v0
/-- The second operand as the region finds it: 4096 rows of 2048. -/
abbrev entryTable (c : Dev nD) : FVec Ideal S4096x2048 .f32 := V m c main_arg1
/-- The first operand's block at step t, -/
abbrev firstBlock (c : Dev nD) (t : Fin cfg0.N) : FVec Ideal S32x2048 .f32 := iblk m c 0 t
/-- and the second's. -/
abbrev secondBlock (c : Dev nD) (t : Fin cfg0.N) : FVec Ideal S512x2048 .f32 := iblk m c 1 t
/-- What the result array is to hold. -/
abbrev pooledRows (c : Dev nD) : FVec Ideal S32x4096 .f32 := rowsMax (entryRows m c) (entryTable m c)

/-- The block indices over the grid: the first operand always block (0, 0), the second block (t, 0), the result
    block (0, t). -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- Every step finds the whole first operand. -/
theorem firstBlock_apply (c : Dev nD) (t : Fin cfg0.N) (p : Fin 32) (k : Fin 2048) :
    firstBlock m c t (ix2 p k) = entryRows m c (ix2 p k) := by
  obtain ⟨e0, e1, -, -, -, -⟩ := block_indices t
  show iblk m c 0 t (ix2 p k) = V m c main_v0 (ix2 p k)
  unfold iblk
  rw [View.read_apply]
  show V m c main_v0 _ = V m c main_v0 _
  congr 1
  funext a; apply Fin.ext
  match a with
  | ⟨0, _⟩ => show win0_0.index t 0 * 32 + 1 * p.val = p.val; rw [e0]; omega
  | ⟨1, _⟩ => show win0_0.index t 1 * 2048 + 1 * k.val = k.val; rw [e1]; omega

/-- Step t finds rows 512·t … of the second operand. -/
theorem secondBlock_apply (c : Dev nD) (t : Fin cfg0.N) (q : Fin 512) (k : Fin 2048) (q' : Fin 4096)
    (hq : q'.val = t.val * 512 + q.val) :
    secondBlock m c t (ix2 q k) = entryTable m c (ix2 q' k) := by
  obtain ⟨-, -, e2, e3, -, -⟩ := block_indices t
  show iblk m c 1 t (ix2 q k) = V m c main_arg1 (ix2 q' k)
  unfold iblk
  rw [View.read_apply]
  show V m c main_arg1 _ = V m c main_arg1 _
  congr 1
  funext a; apply Fin.ext
  match a with
  | ⟨0, _⟩ => show win0_1.index t 0 * 512 + 1 * q.val = q'.val; rw [e2, hq]; omega
  | ⟨1, _⟩ => show win0_1.index t 1 * 2048 + 1 * k.val = k.val; rw [e3]; omega

/-- What step t writes back is block t of `pooledRows`. -/
theorem flushed_eq (c : Dev nD) (t : Fin cfg0.N) :
    (dats m 0 c).flushed 2 t = ((cfg0.win 2).blk t).view.read (Elt Ideal) (pooledRows m c) := by
  obtain ⟨-, -, -, -, e4, e5⟩ := block_indices t
  show (cfg0.win 2).cut (grid0.coords t) ((dats m 0 c).after 2 t) = _
  rw [after0_2, out_block_eq]
  funext j
  show rowsMax (firstBlock m c t) (secondBlock m c t) j = rowsMax (entryRows m c) (entryTable m c) (((cfg0.win 2).blk t).view.emb j)
  refine rowsMax_block (entryRows m c) (entryTable m c) (firstBlock m c t) (secondBlock m c t) t.val
    (firstBlock_apply m c t) (secondBlock_apply m c t) j (((cfg0.win 2).blk t).view.emb j) ?_ ?_
  · show win0_2.index t 0 * 32 + 1 * (j 0).val = (j 0).val; rw [e4]; omega
  · show win0_2.index t 1 * 512 + 1 * (j 1).val = t.val * 512 + (j 1).val; rw [e5]; omega

/-- An index of the result array is in step t's block iff each coordinate is in the block's range on its axis. -/
theorem mem_block (t : Fin cfg0.N) (i : S32x4096.Idx) :
    i ∈ ((cfg0.win 2).blk t).view.set ↔ ∀ a : Fin 2, win0_2.index t a * S32x512.size a ≤ (i a).val ∧ (i a).val < win0_2.index t a * S32x512.size a + S32x512.size a := by
  show i ∈ ((View.whole main_v1).slice (win0_2.rect t)).set ↔ _
  rw [View.set_slice_whole, Rect.mem_set_unit]
  exact Iff.rfl

/-- Column j of the result lies in the block of step j / 512, and every step writes back. -/
theorem covered (i : S32x4096.Idx) :
    ∃ t : Fin cfg0.N, (cfg0.win 2).flush t = true ∧ i ∈ ((cfg0.win 2).blk t).view.set := by
  have h0 : (i 0).val < 32 := (i 0).isLt
  have h1 : (i 1).val < 4096 := (i 1).isLt
  have hN : cfg0.N = 8 := N_0
  obtain ⟨t, ht⟩ : ∃ t : Fin cfg0.N, t.val = (i 1).val / 512 := ⟨⟨(i 1).val / 512, by rw [hN]; omega⟩, rfl⟩
  obtain ⟨-, -, -, -, e4, e5⟩ := block_indices t
  refine ⟨t, flush0_2 t, ?_⟩
  rw [mem_block]
  intro a
  match a with
  | ⟨0, _⟩ => show win0_2.index t 0 * 32 ≤ (i 0).val ∧ (i 0).val < win0_2.index t 0 * 32 + 32; rw [e4]; omega
  | ⟨1, _⟩ => show win0_2.index t 1 * 512 ≤ (i 1).val ∧ (i 1).val < win0_2.index t 1 * 512 + 512; rw [e5, ht]; omega

/-- The result array after the region. -/
theorem final_rows (c : Dev nD) : (dats m 0 c).arrAt 2 cfg0.N = pooledRows m c :=
  (dats m 0 c).arrAt_eq_of_cover 2 (pooledRows m c) (fun t _ => flushed_eq m c t) covered

end Cert.KernelIdeal.Hand

end
-- ==== Proof.KernelRun.lean ====
/-
  The idealized kernel's run, read.

  Before the region the program re-lays its first argument, 2 × 16 × 2048, as 32 rows of 2048; the second argument
  goes in as it is. After the region it re-lays the 32 × 4096 result as 2 × 16 × 4096. The region leaves
  `rowsMax` of what it found, so the program's result is `poolMax` of its two arguments, and the arguments end
  as they began.
-/
import proofs.«164447_j16217796509773_1_alg».proof.Proof.KernelArray

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen Cert.Pool

variable (m : (ℓ : Loc nD τ sig) → Buf (Elt Ideal) ℓ) (ρ : Dev nD → PrngReg)

/-- The region finds the first argument re-laid as 32 rows. -/
theorem entryRows_eq (c : Dev nD) :
    entryRows m c = shapeCast S32x2048 (m ((c : Thread nD τ).loc main_arg0)) shapeCasts_S2x16x2048_S32x2048 := by
  show StableHlo.after hostOps0 (fun b => m (c, b)) (Proc.devRef .tc main_v0) = _
  after_results
  rfl

/-- The region finds the second argument as launched. -/
theorem entryTable_eq (c : Dev nD) : entryTable m c = m ((c : Thread nD τ).loc main_arg1) := V_main_arg1 m c

/-- The program's result: the result array re-laid as 2 × 16 × 4096. -/
theorem tail_eq (c : Dev nD) :
    Pipeline.afterTail₀ cfgs (dats m) 0 (V0 m) [hostOps1] c main_v2
      = shapeCast S2x16x4096 (pooledRows m c) shapeCasts_S32x4096_S2x16x4096 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = pooledRows m c :=
    (Pipeline.withArrays_arr spec0 launch0.win.arr_inj c _ _ 2).trans (final_rows m c)
  funext i
  exact congrFun (congrArg (fun z : FVec Ideal S32x4096 .f32 => shapeCast S2x16x4096 z shapeCasts_S32x4096_S2x16x4096) e) i

/-- So the program's result is `poolMax` of its two arguments. -/
theorem result_eq (c : Dev nD) :
    Pipeline.afterTail₀ cfgs (dats m) 0 (V0 m) [hostOps1] c main_v2
      = poolMax (m ((c : Thread nD τ).loc main_arg0)) (m ((c : Thread nD τ).loc main_arg1)) := by
  rw [tail_eq]
  show shapeCast S2x16x4096 (rowsMax (entryRows m c) (entryTable m c)) shapeCasts_S32x4096_S2x16x4096 = _
  rw [entryRows_eq, entryTable_eq]
  exact rowsMax_reshaped _ _ _ _

/-- Every fair run of the idealized kernel ends with its result at `poolMax` of the arguments and the arguments
    unchanged. -/
theorem run : θ_run defs (onTc (τ := τ) (main (F := Ideal))) ⟨m, fun _ => 0, ρ⟩ fun r => ∀ c : Dev nD,
      r.2.mem ((c.tc : Thread nD τ).loc main_v2)
        = poolMax (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Hand

end
-- ==== Proof.lean ====
/- The kernel pools node features onto hyperedges: v[b, c, m] is the largest of the products x[b, c, k] · Bt[m, k]
   over k. It walks the 4096 hyperedges in 8 blocks of 512 and, inside a block, the 32 feature rows (b, c) one at a
   time, each time multiplying the block of Bt by one row of x and taking the maximum along k, from −∞. The reference
   forms all the products at once and takes the same maximum along k, from −∞.

   Read on the extended reals the two agree entry by entry: a maximum of finitely many terms does not depend on the
   order or the grouping in which they are met, and a product does not depend on the order of its factors. No
   finiteness of the inputs is used for the values. The three runs — of the kernel as printed, of its idealization
   and of the reference — each terminate without a fault and leave the arguments as they were; the idealization
   rewrote no operation, so there is nothing to preserve. -/
import proofs.«164447_j16217796509773_1_alg».proof.Defs
import proofs.«164447_j16217796509773_1_alg».proof.Proof.Gen.Kernel
import proofs.«164447_j16217796509773_1_alg».proof.Proof.Gen.Kernel.Skeleton
import proofs.«164447_j16217796509773_1_alg».proof.Proof.Gen.Kernel.Launch
import proofs.«164447_j16217796509773_1_alg».proof.Proof.Gen.Kernel.Points
import proofs.«164447_j16217796509773_1_alg».proof.Proof.Gen.Kernel.Frame
import proofs.«164447_j16217796509773_1_alg».proof.Proof.Gen.KernelIdeal
import proofs.«164447_j16217796509773_1_alg».proof.Proof.Gen.KernelIdeal.Skeleton
import proofs.«164447_j16217796509773_1_alg».proof.Proof.Gen.KernelIdeal.Launch
import proofs.«164447_j16217796509773_1_alg».proof.Proof.Gen.KernelIdeal.Points
import proofs.«164447_j16217796509773_1_alg».proof.Proof.Gen.KernelIdeal.Frame
import proofs.«164447_j16217796509773_1_alg».proof.Proof.Gen.ReferenceIdeal
import proofs.«164447_j16217796509773_1_alg».proof.Proof.Gen.Pre_finite_inputs
import proofs.«164447_j16217796509773_1_alg».proof.Proof.Gen.ReferenceIdeal.Run
import proofs.«164447_j16217796509773_1_alg».proof.Proof.Gen.ReferenceIdeal.Read
import proofs.«164447_j16217796509773_1_alg».proof.Proof.RefPool
import proofs.«164447_j16217796509773_1_alg».proof.Proof.KernelRun
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel :=
  fun m ρ _ => Cert.Kernel.Gen.frame m ρ

/-- So does its idealization. -/
theorem frame_kernel_ideal : Cert.frame_KernelIdeal :=
  fun m ρ _ => Cert.KernelIdeal.Gen.frame m ρ

/-- The reference runs and keeps its arguments: its run with the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- From memories that agree on the arguments both programs end with `poolMax` of the arguments: the kernel's run
    read through its blocks and re-layings, the reference's through its one reduction. -/
theorem algebraic : Cert.algebraic_KernelIdeal_ReferenceIdeal := by
  intro m ρ m' ρ' _ hagree
  refine ⟨fun c => Cert.Pool.poolMax
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v5_eq, Cert.ReferenceIdeal.RefValue.result_eq,
    (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
